-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x4096 .f32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 72
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .i1⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .i1⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S8192x1, .f32⟩
  | .hbm, ⟨63, _⟩ => ⟨S8192x4096, .f32⟩
  | .hbm, ⟨64, _⟩ => ⟨S8192x4096, .f32⟩
  | .hbm, ⟨65, _⟩ => ⟨S8192x4096, .bf16⟩
  | .hbm, ⟨66, _⟩ => ⟨S4096x4096, .bf16⟩
  | .hbm, ⟨67, _⟩ => ⟨S8192x1, .f32⟩
  | .hbm, ⟨68, _⟩ => ⟨S1x4096, .f32⟩
  | .hbm, ⟨69, _⟩ => ⟨S1x4096, .f32⟩
  | .hbm, ⟨70, _⟩ => ⟨S8192x4096, .f32⟩
  | .hbm, ⟨71, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_v17 : Ref sig .tc := ⟨.hbm, 36, rfl⟩
abbrev main_cst_8 : Ref sig .tc := ⟨.hbm, 37, rfl⟩
abbrev main_v18 : Ref sig .tc := ⟨.hbm, 38, rfl⟩
abbrev main_v19 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_cst_11 : Ref sig .tc := ⟨.hbm, 55, rfl⟩
abbrev main_call6_v0 : Ref sig .tc := ⟨.hbm, 56, rfl⟩
abbrev main_call6_v1 : Ref sig .tc := ⟨.hbm, 57, rfl⟩
abbrev main_call6_v2 : Ref sig .tc := ⟨.hbm, 58, rfl⟩
abbrev main_call6_v3 : Ref sig .tc := ⟨.hbm, 59, rfl⟩
abbrev main_call6_v4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4x2048x4096_S8192x4096 : S4x2048x4096.ShapeCasts S8192x4096
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bitsLt_bf16_f32 : FTy.bits .bf16 < FTy.bits .f32
  shapeCasts_S8192_S8192x1 : S8192.ShapeCasts S8192x1
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v35) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 76
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .i1⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .i1⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192x1, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S8192x1, .f32⟩
  | .hbm, ⟨52, _⟩ => ⟨S8192x4096, .f32⟩
  | .hbm, ⟨53, _⟩ => ⟨S8192x4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192x4096, .f32⟩
  | .hbm, ⟨58, _⟩ => ⟨S8192x4096, .f32⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S8192x1, .f32⟩
  | .hbm, ⟨63, _⟩ => ⟨S8192x4096, .f32⟩
  | .hbm, ⟨64, _⟩ => ⟨S8192x4096, .f32⟩
  | .hbm, ⟨65, _⟩ => ⟨S8192x4096, .f32⟩
  | .hbm, ⟨66, _⟩ => ⟨S8192x1, .f32⟩
  | .hbm, ⟨67, _⟩ => ⟨S1x4096, .f32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S8192x4096, .f32⟩
  | .hbm, ⟨72, _⟩ => ⟨S1x4096, .f32⟩
  | .hbm, ⟨73, _⟩ => ⟨S8192x4096, .f32⟩
  | .hbm, ⟨74, _⟩ => ⟨S8192x4096, .f32⟩
  | .hbm, ⟨75, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_cst_4 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_cst_6 : Ref sig .tc := ⟨.hbm, 31, rfl⟩
abbrev main_v14 : Ref sig .tc := ⟨.hbm, 32, rfl⟩
abbrev main_v15 : Ref sig .tc := ⟨.hbm, 33, rfl⟩
abbrev main_cst_7 : Ref sig .tc := ⟨.hbm, 34, rfl⟩
abbrev main_v16 : Ref sig .tc := ⟨.hbm, 35, rfl⟩
abbrev main_v17 : Ref sig .tc := ⟨.hbm, 36, rfl⟩
abbrev main_cst_8 : Ref sig .tc := ⟨.hbm, 37, rfl⟩
abbrev main_v18 : Ref sig .tc := ⟨.hbm, 38, rfl⟩
abbrev main_v19 : Ref sig .tc := ⟨.hbm, 39, rfl⟩
abbrev main_cst_9 : Ref sig .tc := ⟨.hbm, 40, rfl⟩
abbrev main_call3_v0 : Ref sig .tc := ⟨.hbm, 41, rfl⟩
abbrev main_call3_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_10 : Ref sig .tc := ⟨.hbm, 54, rfl⟩
abbrev main_cst_11 : Ref sig .tc := ⟨.hbm, 55, rfl⟩
abbrev main_call6_v0 : Ref sig .tc := ⟨.hbm, 56, rfl⟩
abbrev main_call6_v1 : Ref sig .tc := ⟨.hbm, 57, rfl⟩
abbrev main_call6_v2 : Ref sig .tc := ⟨.hbm, 58, rfl⟩
abbrev main_call6_v3 : Ref sig .tc := ⟨.hbm, 59, rfl⟩
abbrev main_call6_v4 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  shapeCasts_S4x2048x4096_S8192x4096 : S4x2048x4096.ShapeCasts S8192x4096
  reducesTo_S8192x4096_S8192_d1 : S8192x4096.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S4x2048x4096 : S8192x4096.ShapeCasts S4x2048x4096
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Blocks.lean ====
/-
  Where each block of a grid point sits in its array. Grid point t (of 128) is the triple (t / 16, t / 4 % 4, t % 4):
  the block of 1024 output rows, the block of 1024 output columns, and the step along the contracted axis. The left
  operand's block is rows 1024 (t / 16) + p and contracted columns 1024 (t % 4) + k; the right operand's block is rows
  1024 (t / 4 % 4) + q (the output's columns) and the same contracted columns; the row factors go with the output's
  rows, the column factors and the bias with the output's columns. Every lemma reads one entry of a block as one entry
  of the array the region finds, the array itself never opened.
-/
import proofs.«151902_j56530359550878_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps over the grid: which block of its array each window holds at point t. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

theorem lt_N (t : Fin cfg0.N) : t.val < 128 := lt_of_lt_of_eq t.isLt (show cfg0.N = 128 from N_0)

/-- Output row p of point t's block of rows, in the whole array. -/
def rowAt (t : Fin cfg0.N) (p : Fin 1024) : Fin 8192 := ⟨1024 * (t.val / 16) + p.val, by have := lt_N t; omega⟩
/-- Output column q of point t's block of columns. -/
def colAt (t : Fin cfg0.N) (q : Fin 1024) : Fin 4096 := ⟨1024 * (t.val / 4 % 4) + q.val, by omega⟩
/-- Contracted column k of point t's step. -/
def stepAt (t : Fin cfg0.N) (k : Fin 1024) : Fin 4096 := ⟨1024 * (t.val % 4) + k.val, by omega⟩

/-- The arrays the region finds, at their literal types. -/
abbrev lhsArr (c : Dev nD) : Vec F S8192x4096 .bf16 := V m c main_v35
abbrev rhsArr (c : Dev nD) : Vec F S4096x4096 .bf16 := V m c main_v36
abbrev rowFac (c : Dev nD) : Vec F S8192x1 .f32 := V m c main_v37
abbrev colFac (c : Dev nD) : Vec F S1x4096 .f32 := V m c main_v38
abbrev biasArr (c : Dev nD) : Vec F S1x4096 .f32 := V m c main_v39

/-- and the blocks of a point, at theirs. -/
abbrev lhsBlk (c : Dev nD) (t : Fin cfg0.N) : Vec F S1024x1024 .bf16 := iblk m c 0 t
abbrev rhsBlk (c : Dev nD) (t : Fin cfg0.N) : Vec F S1024x1024 .bf16 := iblk m c 1 t
abbrev rowFacBlk (c : Dev nD) (t : Fin cfg0.N) : Vec F S1024x1 .f32 := iblk m c 2 t
abbrev colFacBlk (c : Dev nD) (t : Fin cfg0.N) : Vec F S1x1024 .f32 := iblk m c 3 t
abbrev biasBlk (c : Dev nD) (t : Fin cfg0.N) : Vec F S1x1024 .f32 := iblk m c 4 t

theorem lhsBlk_apply (c : Dev nD) (t : Fin cfg0.N) (p k : Fin 1024) :
    lhsBlk m c t (ix2 p k) = lhsArr m c (ix2 (rowAt t p) (stepAt t k)) := by
  obtain ⟨e0, e1, -⟩ := idx_facts t
  show iblk m c 0 t (ix2 p k) = V m c main_v35 _
  unfold iblk
  rw [View.read_apply]
  show V m c main_v35 _ = V m c main_v35 _
  congr 1
  funext a
  apply Fin.ext
  match a with
  | ⟨0, _⟩ => show win0_0.index t (0 : Fin 2) * 1024 + 1 * p.val = 1024 * (t.val / 16) + p.val; omega
  | ⟨1, _⟩ => show win0_0.index t (1 : Fin 2) * 1024 + 1 * k.val = 1024 * (t.val % 4) + k.val; omega

theorem rhsBlk_apply (c : Dev nD) (t : Fin cfg0.N) (q k : Fin 1024) :
    rhsBlk m c t (ix2 q k) = rhsArr m c (ix2 (colAt t q) (stepAt t k)) := by
  obtain ⟨-, -, e0, e1, -⟩ := idx_facts t
  show iblk m c 1 t (ix2 q k) = V m c main_v36 _
  unfold iblk
  rw [View.read_apply]
  show V m c main_v36 _ = V m c main_v36 _
  congr 1
  funext a
  apply Fin.ext
  match a with
  | ⟨0, _⟩ => show win0_1.index t (0 : Fin 2) * 1024 + 1 * q.val = 1024 * (t.val / 4 % 4) + q.val; omega
  | ⟨1, _⟩ => show win0_1.index t (1 : Fin 2) * 1024 + 1 * k.val = 1024 * (t.val % 4) + k.val; omega

theorem rowFacBlk_apply (c : Dev nD) (t : Fin cfg0.N) (p : Fin 1024) :
    rowFacBlk m c t (ix2 p (0 : Fin 1)) = rowFac m c (ix2 (rowAt t p) (0 : Fin 1)) := by
  obtain ⟨-, -, -, -, e0, e1, -⟩ := idx_facts t
  show iblk m c 2 t (ix2 p (0 : Fin 1)) = V m c main_v37 _
  unfold iblk
  rw [View.read_apply]
  show V m c main_v37 _ = V m c main_v37 _
  congr 1
  funext a
  apply Fin.ext
  match a with
  | ⟨0, _⟩ => show win0_2.index t (0 : Fin 2) * 1024 + 1 * p.val = 1024 * (t.val / 16) + p.val; omega
  | ⟨1, _⟩ => show win0_2.index t (1 : Fin 2) * 1 + 1 * 0 = 0; omega

theorem colFacBlk_apply (c : Dev nD) (t : Fin cfg0.N) (q : Fin 1024) :
    colFacBlk m c t (ix2 (0 : Fin 1) q) = colFac m c (ix2 (0 : Fin 1) (colAt t q)) := by
  obtain ⟨-, -, -, -, -, -, e0, e1, -⟩ := idx_facts t
  show iblk m c 3 t (ix2 (0 : Fin 1) q) = V m c main_v38 _
  unfold iblk
  rw [View.read_apply]
  show V m c main_v38 _ = V m c main_v38 _
  congr 1
  funext a
  apply Fin.ext
  match a with
  | ⟨0, _⟩ => show win0_3.index t (0 : Fin 2) * 1 + 1 * 0 = 0; omega
  | ⟨1, _⟩ => show win0_3.index t (1 : Fin 2) * 1024 + 1 * q.val = 1024 * (t.val / 4 % 4) + q.val; omega

theorem biasBlk_apply (c : Dev nD) (t : Fin cfg0.N) (q : Fin 1024) :
    biasBlk m c t (ix2 (0 : Fin 1) q) = biasArr m c (ix2 (0 : Fin 1) (colAt t q)) := by
  obtain ⟨-, -, -, -, -, -, -, -, e0, e1, -⟩ := idx_facts t
  show iblk m c 4 t (ix2 (0 : Fin 1) q) = V m c main_v39 _
  unfold iblk
  rw [View.read_apply]
  show V m c main_v39 _ = V m c main_v39 _
  congr 1
  funext a
  apply Fin.ext
  match a with
  | ⟨0, _⟩ => show win0_4.index t (0 : Fin 2) * 1 + 1 * 0 = 0; omega
  | ⟨1, _⟩ => show win0_4.index t (1 : Fin 2) * 1024 + 1 * q.val = 1024 * (t.val / 4 % 4) + q.val; omega

end Cert.KernelIdeal.Blocks

end
-- ==== Proof.HostPrefix.lean ====
/-
  What the region finds in its five arrays, as functions of the program's arguments. The host operations before the
  region compute, from the weights, the per-feature scale and the quantized weights, and from the activations the
  per-token scale, the zero point and the shifted quantized activations; the region is handed these through a change of
  float format (left and right operand) and through reshapes to a column (per-token scale) and to rows (per-feature
  scale, bias). The same operations, in the same order and with the same constants, are the reference's first stages,
  so each array is stated over the reference's own stage of the argument. The operations that were outlined into called
  functions (where, round, clip) store and read their values through typed references; a value stored and read back
  through the same typed reference is itself, and so is a value passed between a typed and a plain operation at a
  buffer whose type is the value's.
-/
import proofs.«151902_j56530359550878_1_alg».proof.Proof.Blocks
import proofs.«151902_j56530359550878_1_alg».proof.Proof.Gen.ReferenceIdeal.Read
import Idealize.ShloMosaic.Lib.StableHlo.Run

noncomputable section

open Idealize.ShloMosaic Idealize.ShloMosaic.TcCoe Idealize.SL.Sem

namespace Cert.KernelIdeal.HostPrefix

open Cert.KernelIdeal Cert.KernelIdeal.Gen Cert.KernelIdeal.Blocks Idealize.ShloMosaic.StableHlo

variable (m : (ℓ : Loc nD τ sig) → Buf (Elt Ideal) ℓ)

/-! ## Values through typed references -/

/-- A value stored through a typed reference and read back through the same reference is itself. -/
theorem ofBuf_toBuf {T : BufTy} (x : TRef sig T) (v : T.Contents (Elt Ideal)) : x.ofBuf (x.toBuf v) = v := by
  obtain ⟨r, h, h2, h3⟩ := x
  subst h
  rfl

/-! A plain operation's value read through a typed reference of its buffer is the value: the buffer's type is the value's.
    One fact per buffer that a plain operation writes and a called function reads. -/

theorem ofBuf_cst_2 (x : (⟨S_, .f32⟩ : BufTy).Contents (Elt Ideal)) :
    (TRef.of main_cst_2 : TRef sig ⟨S_, .f32⟩).ofBuf (Val := Elt Ideal) x = x := rfl
theorem ofBuf_v3 (x : (⟨S4096, .i1⟩ : BufTy).Contents (Elt Ideal)) :
    (TRef.of main_v3 : TRef sig ⟨S4096, .i1⟩).ofBuf (Val := Elt Ideal) x = x := rfl
theorem ofBuf_v5 (x : (⟨S4096, .f32⟩ : BufTy).Contents (Elt Ideal)) :
    (TRef.of main_v5 : TRef sig ⟨S4096, .f32⟩).ofBuf (Val := Elt Ideal) x = x := rfl
theorem ofBuf_v9 (x : (⟨S4096x4096, .f32⟩ : BufTy).Contents (Elt Ideal)) :
    (TRef.of main_v9 : TRef sig ⟨S4096x4096, .f32⟩).ofBuf (Val := Elt Ideal) x = x := rfl
theorem ofBuf_cst_3 (x : (⟨S_, .f32⟩ : BufTy).Contents (Elt Ideal)) :
    (TRef.of main_cst_3 : TRef sig ⟨S_, .f32⟩).ofBuf (Val := Elt Ideal) x = x := rfl
theorem ofBuf_cst_4 (x : (⟨S_, .f32⟩ : BufTy).Contents (Elt Ideal)) :
    (TRef.of main_cst_4 : TRef sig ⟨S_, .f32⟩).ofBuf (Val := Elt Ideal) x = x := rfl
theorem ofBuf_cst_9 (x : (⟨S_, .f32⟩ : BufTy).Contents (Elt Ideal)) :
    (TRef.of main_cst_9 : TRef sig ⟨S_, .f32⟩).ofBuf (Val := Elt Ideal) x = x := rfl
theorem ofBuf_v17 (x : (⟨S8192, .i1⟩ : BufTy).Contents (Elt Ideal)) :
    (TRef.of main_v17 : TRef sig ⟨S8192, .i1⟩).ofBuf (Val := Elt Ideal) x = x := rfl
theorem ofBuf_v19 (x : (⟨S8192, .f32⟩ : BufTy).Contents (Elt Ideal)) :
    (TRef.of main_v19 : TRef sig ⟨S8192, .f32⟩).ofBuf (Val := Elt Ideal) x = x := rfl
theorem ofBuf_v22 (x : (⟨S8192, .f32⟩ : BufTy).Contents (Elt Ideal)) :
    (TRef.of main_v22 : TRef sig ⟨S8192, .f32⟩).ofBuf (Val := Elt Ideal) x = x := rfl
theorem ofBuf_v26 (x : (⟨S8192x4096, .f32⟩ : BufTy).Contents (Elt Ideal)) :
    (TRef.of main_v26 : TRef sig ⟨S8192x4096, .f32⟩).ofBuf (Val := Elt Ideal) x = x := rfl
theorem ofBuf_cst_10 (x : (⟨S_, .f32⟩ : BufTy).Contents (Elt Ideal)) :
    (TRef.of main_cst_10 : TRef sig ⟨S_, .f32⟩).ofBuf (Val := Elt Ideal) x = x := rfl
theorem ofBuf_v30 (x : (⟨S8192x4096, .f32⟩ : BufTy).Contents (Elt Ideal)) :
    (TRef.of main_v30 : TRef sig ⟨S8192x4096, .f32⟩).ofBuf (Val := Elt Ideal) x = x := rfl
theorem ofBuf_cst_11 (x : (⟨S_, .f32⟩ : BufTy).Contents (Elt Ideal)) :
    (TRef.of main_cst_11 : TRef sig ⟨S_, .f32⟩).ofBuf (Val := Elt Ideal) x = x := rfl

/-! A called function's result, stored through a typed reference and read by a plain operation, is the value too. One
    fact per such result. -/

theorem toBuf_v6 (x : (⟨S4096, .f32⟩ : BufTy).Contents (Elt Ideal)) :
    (TRef.of main_v6 : TRef sig ⟨S4096, .f32⟩).toBuf (Val := Elt Ideal) x = x := rfl
theorem toBuf_v11 (x : (⟨S4096x4096, .f32⟩ : BufTy).Contents (Elt Ideal)) :
    (TRef.of main_v11 : TRef sig ⟨S4096x4096, .f32⟩).toBuf (Val := Elt Ideal) x = x := rfl
theorem toBuf_v20 (x : (⟨S8192, .f32⟩ : BufTy).Contents (Elt Ideal)) :
    (TRef.of main_v20 : TRef sig ⟨S8192, .f32⟩).toBuf (Val := Elt Ideal) x = x := rfl
theorem toBuf_v23 (x : (⟨S8192, .f32⟩ : BufTy).Contents (Elt Ideal)) :
    (TRef.of main_v23 : TRef sig ⟨S8192, .f32⟩).toBuf (Val := Elt Ideal) x = x := rfl
theorem toBuf_v27 (x : (⟨S8192x4096, .f32⟩ : BufTy).Contents (Elt Ideal)) :
    (TRef.of main_v27 : TRef sig ⟨S8192x4096, .f32⟩).toBuf (Val := Elt Ideal) x = x := rfl
theorem toBuf_v31 (x : (⟨S8192x4096, .f32⟩ : BufTy).Contents (Elt Ideal)) :
    (TRef.of main_v31 : TRef sig ⟨S8192x4096, .f32⟩).toBuf (Val := Elt Ideal) x = x := rfl

/-! ## The five arrays

Each proof reads the host operations before the region back at the array's buffer, drops the typed references by the
facts above, and is then the reference's stage by unfolding its definition. -/

set_option maxRecDepth 100000 in
set_option maxHeartbeats 4000000 in
/-- The left operand: the shifted quantized activations, through a change of float format. -/
theorem lhsArr_eq (c : Dev nD) :
    lhsArr m c = truncf (F := Ideal) (s := S8192x4096) (φ := .f32) .bf16
      (Cert.ReferenceIdeal.Read.val_main_v34 (F := Ideal) (m ((c : Thread nD τ).loc main_arg0))) (by decide) := by
  show V m c main_v35 = _
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, List.flatten_cons, List.flatten_nil, List.append_nil, List.cons_append, List.nil_append]
  after_results_simp
  simp only [ofBuf_toBuf, ofBuf_cst_2, ofBuf_v3, ofBuf_v5, ofBuf_v9, ofBuf_cst_3, ofBuf_cst_4, ofBuf_cst_9, ofBuf_v17,
    ofBuf_v19, ofBuf_v22, ofBuf_v26, ofBuf_cst_10, ofBuf_v30, ofBuf_cst_11, toBuf_v6, toBuf_v11, toBuf_v20, toBuf_v23,
    toBuf_v27, toBuf_v31]
  rfl

set_option maxRecDepth 100000 in
set_option maxHeartbeats 4000000 in
/-- The right operand: the quantized weights, through a change of float format. -/
theorem rhsArr_eq (c : Dev nD) :
    rhsArr m c = truncf (F := Ideal) (s := S4096x4096) (φ := .f32) .bf16
      (Cert.ReferenceIdeal.Read.val_main_v11 (F := Ideal) (m ((c : Thread nD τ).loc main_arg1))) (by decide) := by
  show V m c main_v36 = _
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, List.flatten_cons, List.flatten_nil, List.append_nil, List.cons_append, List.nil_append]
  after_results_simp
  simp only [ofBuf_toBuf, ofBuf_cst_2, ofBuf_v3, ofBuf_v5, ofBuf_v9, ofBuf_cst_3, ofBuf_cst_4, ofBuf_cst_9, ofBuf_v17,
    ofBuf_v19, ofBuf_v22, ofBuf_v26, ofBuf_cst_10, ofBuf_v30, ofBuf_cst_11, toBuf_v6, toBuf_v11, toBuf_v20, toBuf_v23,
    toBuf_v27, toBuf_v31]
  rfl

set_option maxRecDepth 100000 in
set_option maxHeartbeats 4000000 in
/-- The row factors: the per-token scale as a column. -/
theorem rowFac_eq (c : Dev nD) :
    rowFac m c = shapeCast S8192x1 (Cert.ReferenceIdeal.Read.val_main_v20 (F := Ideal) (m ((c : Thread nD τ).loc main_arg0)))
      shapeCasts_S8192_S8192x1 := by
  show V m c main_v37 = _
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, List.flatten_cons, List.flatten_nil, List.append_nil, List.cons_append, List.nil_append]
  after_results_simp
  simp only [ofBuf_toBuf, ofBuf_cst_2, ofBuf_v3, ofBuf_v5, ofBuf_v9, ofBuf_cst_3, ofBuf_cst_4, ofBuf_cst_9, ofBuf_v17,
    ofBuf_v19, ofBuf_v22, ofBuf_v26, ofBuf_cst_10, ofBuf_v30, ofBuf_cst_11, toBuf_v6, toBuf_v11, toBuf_v20, toBuf_v23,
    toBuf_v27, toBuf_v31]
  rfl

set_option maxRecDepth 100000 in
set_option maxHeartbeats 4000000 in
/-- The column factors: the per-feature scale as a row. -/
theorem colFac_eq (c : Dev nD) :
    colFac m c = shapeCast S1x4096 (Cert.ReferenceIdeal.Read.val_main_v6 (F := Ideal) (m ((c : Thread nD τ).loc main_arg1)))
      shapeCasts_S4096_S1x4096 := by
  show V m c main_v38 = _
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, List.flatten_cons, List.flatten_nil, List.append_nil, List.cons_append, List.nil_append]
  after_results_simp
  simp only [ofBuf_toBuf, ofBuf_cst_2, ofBuf_v3, ofBuf_v5, ofBuf_v9, ofBuf_cst_3, ofBuf_cst_4, ofBuf_cst_9, ofBuf_v17,
    ofBuf_v19, ofBuf_v22, ofBuf_v26, ofBuf_cst_10, ofBuf_v30, ofBuf_cst_11, toBuf_v6, toBuf_v11, toBuf_v20, toBuf_v23,
    toBuf_v27, toBuf_v31]
  rfl

set_option maxRecDepth 100000 in
set_option maxHeartbeats 4000000 in
/-- The bias, as a row. -/
theorem biasArr_eq (c : Dev nD) :
    biasArr m c = shapeCast S1x4096 (m ((c : Thread nD τ).loc main_arg2)) shapeCasts_S4096_S1x4096 := by
  show V m c main_v39 = _
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, Gen.hostOps0_13,
    Gen.hostOps0_14, List.flatten_cons, List.flatten_nil, List.append_nil, List.cons_append, List.nil_append]
  after_results_simp
  rfl

end Cert.KernelIdeal.HostPrefix

end
-- ==== Proof.RunSum.lean ====
/-
  A sum over 4096 columns taken in four consecutive runs of 1024 columns, each run added in order onto an accumulator
  that starts at zero. On the extended reals addition is commutative and associative with neutral element zero (also
  at the infinities), so the ordered accumulation is the plain sum over all 4096 columns; and multiplication is
  associative, so scaling a value by a row factor and then by a column factor is scaling it by their product.
  Neither law needs the summands or the factors to be finite.
-/
import Idealize.ShloMosaic.PureOps.Ideal
import Mathlib.Algebra.BigOperators.Fin
import Mathlib.Algebra.BigOperators.Intervals

noncomputable section

namespace Cert.RunSum

/-- The summands of the `r`-th run of 1024 columns, added up. -/
def run (f : ℕ → EReal) (r : ℕ) : EReal := ∑ k : Fin 1024, f (1024 * r + k.val)

/-- The accumulator after the runs `0, …, r`: zero, then each run added in order. -/
def upTo (f : ℕ → EReal) : ℕ → EReal
  | 0 => 0 + run f 0
  | r + 1 => upTo f r + run f (r + 1)

theorem upTo_zero (f : ℕ → EReal) : upTo f 0 = 0 + run f 0 := rfl

theorem upTo_succ (f : ℕ → EReal) (r : ℕ) : upTo f (r + 1) = upTo f r + run f (r + 1) := rfl

/-- A run as a sum over a range of naturals. -/
theorem run_eq_range (f : ℕ → EReal) (r : ℕ) : run f r = ∑ x ∈ Finset.range 1024, f (1024 * r + x) :=
  Fin.sum_univ_eq_sum_range (fun x => f (1024 * r + x)) 1024

/-- After the fourth run the accumulator holds the sum over all 4096 columns. -/
theorem upTo_three (f : ℕ → EReal) : upTo f 3 = ∑ k : Fin 4096, f k.val := by
  rw [Fin.sum_univ_eq_sum_range (fun x => f x) 4096,
    show (4096 : ℕ) = 1024 + 1024 + 1024 + 1024 from rfl,
    Finset.sum_range_add, Finset.sum_range_add, Finset.sum_range_add]
  show upTo f 2 + run f 3 = _
  rw [show upTo f 2 = upTo f 1 + run f 2 from rfl, show upTo f 1 = upTo f 0 + run f 1 from rfl, upTo_zero, zero_add,
    run_eq_range, run_eq_range, run_eq_range, run_eq_range]
  refine congrArg₂ (· + ·) (congrArg₂ (· + ·) (congrArg₂ (· + ·) ?_ ?_) ?_) ?_ <;>
    exact Finset.sum_congr rfl (fun x _ => congrArg f (by omega))

/-- Scaling by a row factor and then by a column factor is scaling by the product of the two. -/
theorem scale_scale (a s r b : EReal) : a * s * r + b = a * (s * r) + b := by rw [mul_assoc]

end Cert.RunSum

end
-- ==== Proof.Pieces.lean ====
/-
  What one grid point of the blocked matrix product leaves behind, case by case. The grid walks the 8 x 4 output blocks
  and, innermost, the 4 steps along the contracted axis. Every step adds the product of its two 1024 x 1024 operand
  blocks to an accumulator block that is carried from step to step; the first step starts from the zero block, and
  the last step also writes the output block: the accumulator scaled per row, then per column, plus a bias row.
  Each lemma reads the stores the body's run found back as one value: the store's payload applied to the contents of
  the whole buffers it loaded.
-/
import proofs.«151902_j56530359550878_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords)
  (a3 : Memref sig .tc .vmem S1024x1024 .bf16) (h3 : a3.IsWhole) (a4 : Memref sig .tc .vmem S1024x1024 .bf16) (h4 : a4.IsWhole)
  (a5 : Memref sig .tc .vmem S1024x1 .f32) (h5 : a5.IsWhole) (a6 : Memref sig .tc .vmem S1x1024 .f32) (h6 : a6.IsWhole)
  (a7 : Memref sig .tc .vmem S1x1024 .f32) (h7 : a7.IsWhole) (a8 : Memref sig .tc .vmem S1024x1024 .f32) (h8 : a8.IsWhole)
  (a9 : Memref sig .tc .vmem S1024x1024 .f32) (h9 : a9.IsWhole)
  (x0 x1 : Vec F S1024x1024 .bf16) (x2 : Vec F S1024x1 .f32) (x3 x4 : Vec F S1x1024 .f32) (xs0 : Vec F S1024x1024 .f32)

/-- A point in the middle of a row of the grid (neither its first nor its last step along the contracted axis) leaves in
    the carried accumulator what it found there plus the product of its two operand blocks. -/
theorem scratch_B (hc0 : ¬cond0_0 i) (hc1 : ¬cond0_1 i) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz]
  simp only [View.readAt_eq_ld, h3.read_unread, h4.read_unread, h9.read_unread, View.ld_unit_zero (S := S1024x1024) hz]

/-- The last step along the contracted axis leaves the same in the accumulator: what it found plus the product. -/
theorem scratch_C (hc0 : ¬cond0_0 i) (hc1 : cond0_1 i) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h9.read_unread, View.ld_unit_zero (S := S1024x1024) hz]

/-- At that last step the output block is the finished accumulator (read back after the update) scaled by the row
    factors, then by the column factors, plus the bias row. -/
theorem out_C (hc0 : ¬cond0_0 i) (hc1 : cond0_1 i) :
    out0_C_5 c i a3 h3 a4 h4 a5 h5 a6 h6 a7 h7 a8 h8 a9 h9 hc0 hc1 x0 x1 x2 x3 x4 xs0
      = k0_pay3 (k0_pay2 xs0 x0 x1) x2 x3 x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz]
  simp only [View.readAt_eq_ld, h3.read_unread, h4.read_unread, h5.read_unread, h6.read_unread, h7.read_unread,
    h9.read_unread, View.ld_unit_zero (S := S1024x1024) hz, View.ld_unit_zero (S := S1024x1) hz,
    View.ld_unit_zero (S := S1x1024) hz, View.readCov_unit_zero (S := S1024x1024) _ hz]

/-- The first step along the contracted axis resets the accumulator to the zero block and then adds the product: the
    update reads back the zero block it has just stored. -/
theorem scratch_A (hc0 : cond0_0 i) (hc1 : ¬cond0_1 i) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Pieces

end
-- ==== Proof.LibColumnLayout.lean ====
/-
  Column vectors read at an index given by coordinates: an `[a]` vector viewed as the column `[a, 1]` and back, and a
  column `[a, 1]` broadcast along its rows to `[a, b]`. These are the keepdims forms of a row reduction: the reduction
  leaves one value per row, the cast makes it a column, the broadcast spreads it over the row again. Each lemma is the
  library's index lemma for the operation (`shapeCast_apply`, `broadcastTo_apply`) with both indices written by
  coordinates (`ix1`, `ix2`), so that it applies to a printed operation by unification, at any extents.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` vector cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` cast to the vector `[a]` reads, at `p`, the operand at `(p, 0)`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an `[a, b]` array along its rows (axis 1): the source index over the result index `p` with coordinate `k` on
    the dropped axis is `(p, k)`. -/
theorem lift_row {a b : ℕ} (h : (⟨2, ![a, b]⟩ : Shape).Reduces [1] ⟨1, ![a]⟩) (p : Fin a) (k : Fin b) :
    h.lift (ix1 p) k = ix2 p k := by
  funext d
  apply Fin.ext
  match d with
  | ⟨0, _⟩ => rfl
  | ⟨1, _⟩ => rfl

end Idealize.ShloMosaic.ValueIdx
-- ==== Proof.Payload.lean ====
/-
  The body's three stored values read at one entry, over the extended reals. The zero block is zero everywhere. The
  accumulate step adds, at entry (p, q), the sum over the 1024 contracted columns k of a(p, k) * b(q, k): both operand
  blocks are contracted along their second axis, so the product is a(p, ·) against b(q, ·). The closing step multiplies
  the entry by the row factor of row p, then by the column factor of column q, and adds the bias of column q; the
  factors and the bias come as a column block and two row blocks spread over the whole block.
-/
import proofs.«151902_j56530359550878_1_alg».proof.Proof.Gen.KernelIdeal.Skeleton
import proofs.«151902_j56530359550878_1_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-! ## The operand indices of the block product -/

theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl

theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl

theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-! ## The three values at an entry -/

/-- The product of two blocks into the zero accumulator, at entry (p, q): row p of the left block against row q of the
    right block. -/
theorem blockProduct_apply (a b : FVec Ideal S1024x1024 .bf16) (p q : Fin 1024) :
    FloatOps.matmul (φ₁ := .bf16) (φ₂ := .bf16) dot_S1024x1024_S1024x1024_S1024x1024_1_1_0_0_n_n none a b (constant (F := Ideal) S1024x1024 .f32 0x00000000#32) (ix2 p q)
      = ∑ k : Fin 1024, a (ix2 p k) * b (ix2 q k) := by
  refine (Ideal.matmul_constant_zero_apply dot_S1024x1024_S1024x1024_S1024x1024_1_1_0_0_n_n none a b (ix2 p q)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-- The zero block is zero at every entry. -/
theorem zeroBlock_apply (y : S1024x1024.Idx) : k0_pay1 (F := Ideal) y = 0 := by
  unfold k0_pay1
  show shapeCast S1024x1024 (broadcast S1024x1024 (Ideal.ofBits .f32 0x00000000#32)) _ y = 0
  rw [shapeCast_self, broadcast_apply, Ideal.ofBits_zero_f32]

/-- The accumulate step at entry (p, q): what was there plus the block product's entry. -/
theorem accumulate_apply (acc : Vec Ideal S1024x1024 .f32) (a b : Vec Ideal S1024x1024 .bf16) (p q : Fin 1024) :
    k0_pay2 (F := Ideal) acc a b (ix2 p q) = acc (ix2 p q) + ∑ k : Fin 1024, a (ix2 p k) * b (ix2 q k) := by
  unfold k0_pay2
  rw [shapeCast_self, shapeCast_self, shapeCast_self]
  exact congrArg (acc (ix2 p q) + ·) (blockProduct_apply a b p q)

/-- The closing step at entry (p, q): the entry times the row factor of p, times the column factor of q, plus the bias
    of column q. -/
theorem scaleBias_apply (acc : Vec Ideal S1024x1024 .f32) (rowf : Vec Ideal S1024x1 .f32) (colf bias : Vec Ideal S1x1024 .f32)
    (p q : Fin 1024) :
    k0_pay3 (F := Ideal) acc rowf colf bias (ix2 p q)
      = acc (ix2 p q) * rowf (ix2 p (0 : Fin 1)) * colf (ix2 (0 : Fin 1) q) + bias (ix2 (0 : Fin 1) q) := by
  unfold k0_pay3
  rw [shapeCast_self, shapeCast_self, shapeCast_self]
  show acc (ix2 p q) * broadcastTo S1024x1024 rowf _ (ix2 p q) * broadcastTo S1024x1024 colf _ (ix2 p q)
      + broadcastTo S1024x1024 bias _ (ix2 p q) = _
  rw [broadcastTo_a1_ab_apply rowf _ p q, broadcastTo_1b_ab_apply colf _ p q, broadcastTo_1b_ab_apply bias _ p q]

end Cert.KernelIdeal.Payload

end
-- ==== Proof.Accum.lean ====
/-
  The accumulator carried across the grid, by induction on the grid point. Fix an output block and an entry (p, q) of
  it: output row r = 1024 (t / 16) + p, output column s = 1024 (t / 4 % 4) + q. Along the four steps t % 4 = 0, 1, 2, 3
  the accumulator's entry is: zero plus the first run of 1024 products a(r, k) * b(s, k), then each further run added
  in order. A step that is not the first has the same output block as the point before it, so the induction hypothesis
  at t - 1 speaks of the same r and s. At the last step the accumulator holds the whole sum over the 4096 contracted
  columns, and the output block's entry is that sum times the row factor of r, times the column factor of s, plus the
  bias of s.
-/
import proofs.«151902_j56530359550878_1_alg».proof.Proof.RunSum
import proofs.«151902_j56530359550878_1_alg».proof.Proof.Pieces
import proofs.«151902_j56530359550878_1_alg».proof.Proof.Blocks
import proofs.«151902_j56530359550878_1_alg».proof.Proof.Payload

noncomputable section

open Idealize.ShloMosaic Idealize.ShloMosaic.TcCoe Idealize.SL.Sem

namespace Cert.KernelIdeal.Accum

open Cert.KernelIdeal Cert.KernelIdeal.Gen Idealize.ShloMosaic.ValueIdx
open Cert.KernelIdeal.Blocks Cert.KernelIdeal.Pieces Cert.KernelIdeal.Payload Cert.RunSum

variable (m : (ℓ : Loc nD τ sig) → Buf (Elt Ideal) ℓ)

/-- The products that make up output entry (r, s), along the contracted axis (zero past its end). -/
def terms (c : Dev nD) (r : Fin 8192) (s : Fin 4096) : ℕ → EReal := fun k =>
  if h : k < 4096 then lhsArr m c (ix2 r ⟨k, h⟩) * rhsArr m c (ix2 s ⟨k, h⟩) else 0

/-- Over the contracted axis itself the padding is never met. -/
theorem sum_terms (c : Dev nD) (r : Fin 8192) (s : Fin 4096) :
    ∑ k : Fin 4096, terms m c r s k.val = ∑ k : Fin 4096, lhsArr m c (ix2 r k) * rhsArr m c (ix2 s k) :=
  Finset.sum_congr rfl fun k _ => by unfold terms; rw [dif_pos k.isLt]

/-- One step's block product at entry (p, q) is that step's run of the products of the output entry. -/
theorem step_run (c : Dev nD) (t : Fin cfg0.N) (p q : Fin 1024) :
    ∑ k : Fin 1024, lhsBlk m c t (ix2 p k) * rhsBlk m c t (ix2 q k)
      = run (terms m c (rowAt t p) (colAt t q)) (t.val % 4) := by
  unfold run
  refine Finset.sum_congr rfl fun k _ => ?_
  rw [lhsBlk_apply, rhsBlk_apply]
  unfold terms
  rw [dif_pos (show 1024 * (t.val % 4) + k.val < 4096 by omega)]
  rfl

/-- A step that is not the first continues the accumulation of the step before it. -/
theorem upTo_step (f : ℕ → EReal) (n : ℕ) (h0 : ¬n % 4 = 0) :
    upTo f ((n - 1) % 4) + run f (n % 4) = upTo f (n % 4) := by
  have e : n % 4 = (n - 1) % 4 + 1 := by omega
  rw [e]
  rfl

/-- and works on the same rows and columns of the output. -/
theorem rowAt_pred (t t' : Fin cfg0.N) (h0 : ¬t.val % 4 = 0) (ht : t'.val = t.val - 1) (p : Fin 1024) :
    rowAt t' p = rowAt t p :=
  Fin.ext (by show 1024 * (t'.val / 16) + p.val = 1024 * (t.val / 16) + p.val; omega)

theorem colAt_pred (t t' : Fin cfg0.N) (h0 : ¬t.val % 4 = 0) (ht : t'.val = t.val - 1) (q : Fin 1024) :
    colAt t' q = colAt t q :=
  Fin.ext (by show 1024 * (t'.val / 4 % 4) + q.val = 1024 * (t.val / 4 % 4) + q.val; omega)

/-- THE INVARIANT: after point t the accumulator's entry (p, q) is the ordered sum of the runs up to t's step. -/
theorem scratch_eq (c : Dev nD) : ∀ (n : ℕ) (t : Fin cfg0.N), t.val = n → ∀ p q : Fin 1024,
    (outsAt0 m c t.val t.isLt).2 (ix2 p q) = upTo (terms m c (rowAt t p) (colAt t q)) (t.val % 4) := by
  intro n
  induction n using Nat.strong_induction_on with
  | _ n ih =>
    intro t htn p q
    by_cases h0 : t.val % 4 = 0
    · have h1 : ¬t.val % 4 = 3 := by omega
      rw [outsAt0_A m c t h0 h1]
      dsimp only
      refine (congrFun (scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (lhsBlk m c t) (rhsBlk m c t) (rowFacBlk m c t) (colFacBlk m c t) (biasBlk m c t) ((hcond0_0 t).mpr h0) (fun h => h1 ((hcond0_1 t).mp h))) (ix2 p q)).trans ?_
      refine (accumulate_apply _ _ _ p q).trans ?_
      rw [zeroBlock_apply, step_run, h0]
      rfl
    · have hlt : t.val - 1 < cfg0.N := Nat.lt_of_le_of_lt (Nat.sub_le _ _) t.isLt
      have hprev := ih (t.val - 1) (by omega) ⟨t.val - 1, hlt⟩ rfl p q
      rw [rowAt_pred t ⟨t.val - 1, hlt⟩ h0 rfl, colAt_pred t ⟨t.val - 1, hlt⟩ h0 rfl] at hprev
      by_cases h1 : t.val % 4 = 3
      · rw [outsAt0_C m c t h0 h1]
        dsimp only
        refine (congrFun (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (lhsBlk m c t) (rhsBlk m c t) (rowFacBlk m c t) (colFacBlk m c t) (biasBlk m c t) ((outsAt0 m c (t.val - 1) (Nat.lt_of_le_of_lt (Nat.sub_le _ _) t.isLt)).2) (fun h => h0 ((hcond0_0 t).mp h)) ((hcond0_1 t).mpr h1)) (ix2 p q)).trans ?_
        refine (accumulate_apply _ _ _ p q).trans ?_
        rw [step_run]
        exact (congrArg (· + run (terms m c (rowAt t p) (colAt t q)) (t.val % 4)) hprev).trans (upTo_step _ _ h0)
      · rw [outsAt0_B m c t h0 h1]
        dsimp only
        refine (congrFun (scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (lhsBlk m c t) (rhsBlk m c t) (rowFacBlk m c t) (colFacBlk m c t) (biasBlk m c t) ((outsAt0 m c (t.val - 1) (Nat.lt_of_le_of_lt (Nat.sub_le _ _) t.isLt)).2) (fun h => h0 ((hcond0_0 t).mp h)) (fun h => h1 ((hcond0_1 t).mp h))) (ix2 p q)).trans ?_
        refine (accumulate_apply _ _ _ p q).trans ?_
        rw [step_run]
        exact (congrArg (· + run (terms m c (rowAt t p) (colAt t q)) (t.val % 4)) hprev).trans (upTo_step _ _ h0)

/-- THE OUTPUT BLOCK at a last step: the whole contraction, scaled by the row factor, then the column factor, plus the
    bias. -/
theorem out_eq (c : Dev nD) (t : Fin cfg0.N) (h1 : t.val % 4 = 3) (p q : Fin 1024) :
    (outsAt0 m c t.val t.isLt).1 (ix2 p q)
      = (∑ k : Fin 4096, lhsArr m c (ix2 (rowAt t p) k) * rhsArr m c (ix2 (colAt t q) k))
          * rowFac m c (ix2 (rowAt t p) (0 : Fin 1)) * colFac m c (ix2 (0 : Fin 1) (colAt t q))
        + biasArr m c (ix2 (0 : Fin 1) (colAt t q)) := by
  have h0 : ¬t.val % 4 = 0 := by omega
  have hlt : t.val - 1 < cfg0.N := Nat.lt_of_le_of_lt (Nat.sub_le _ _) t.isLt
  have hprev := scratch_eq m c (t.val - 1) ⟨t.val - 1, hlt⟩ rfl p q
  rw [rowAt_pred t ⟨t.val - 1, hlt⟩ h0 rfl, colAt_pred t ⟨t.val - 1, hlt⟩ h0 rfl] at hprev
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (lhsBlk m c t) (rhsBlk m c t) (rowFacBlk m c t) (colFacBlk m c t) (biasBlk m c t) ((outsAt0 m c (t.val - 1) (Nat.lt_of_le_of_lt (Nat.sub_le _ _) t.isLt)).2) (fun h => h0 ((hcond0_0 t).mp h)) ((hcond0_1 t).mpr h1)) (ix2 p q)).trans ?_
  refine (scaleBias_apply _ _ _ _ p q).trans ?_
  rw [accumulate_apply, step_run, rowFacBlk_apply, colFacBlk_apply, biasBlk_apply]
  have hacc : (outsAt0 m c (t.val - 1) (Nat.lt_of_le_of_lt (Nat.sub_le _ _) t.isLt)).2 (ix2 p q)
      + run (terms m c (rowAt t p) (colAt t q)) (t.val % 4)
      = ∑ k : Fin 4096, lhsArr m c (ix2 (rowAt t p) k) * rhsArr m c (ix2 (colAt t q) k) := by
    refine ((congrArg (· + run (terms m c (rowAt t p) (colAt t q)) (t.val % 4)) hprev).trans (upTo_step _ _ h0)).trans ?_
    rw [h1, upTo_three, sum_terms]
  rw [hacc]

end Cert.KernelIdeal.Accum

end
-- ==== Proof.OutArray.lean ====
/-
  The output array after the run. The output window is written back only at the last step of each output block
  (t % 4 = 3), and what is written back is block (t / 16, t / 4 % 4) of one function of the arrays the region finds:
  entry (r, s) is the contraction of row r of the left operand with row s of the right operand over all 4096 columns,
  times the row factor of r, times the column factor of s, plus the bias of s. The 8 x 4 blocks tile the array: entry
  (r, s) lies in the block written back at point ((r / 1024) * 4 + s / 1024) * 4 + 3. So the whole array ends holding
  that function, and the program's result is its reshape to three axes.
-/
import proofs.«151902_j56530359550878_1_alg».proof.Proof.Accum
import Idealize.ShloMosaic.Lib.StableHlo.Run

noncomputable section

open Idealize.ShloMosaic Idealize.ShloMosaic.TcCoe Idealize.SL.Sem
open Idealize.ShloMosaic.Pipeline (Dat)

namespace Cert.KernelIdeal.OutArray

open Cert.KernelIdeal Cert.KernelIdeal.Gen Idealize.ShloMosaic.ValueIdx
open Cert.KernelIdeal.Blocks Cert.KernelIdeal.Accum

variable (m : (ℓ : Loc nD τ sig) → Buf (Elt Ideal) ℓ) (ρ : Dev nD → PrngReg)

/-- Entry (r, s) of the output array, from the arrays the region finds. -/
def entry (c : Dev nD) (r : Fin 8192) (s : Fin 4096) : EReal :=
  (∑ k : Fin 4096, lhsArr m c (ix2 r k) * rhsArr m c (ix2 s k))
      * rowFac m c (ix2 r (0 : Fin 1)) * colFac m c (ix2 (0 : Fin 1) s)
    + biasArr m c (ix2 (0 : Fin 1) s)

/-- The output array as one function of its index. -/
def outArr (c : Dev nD) : Vec Ideal S8192x4096 .f32 := fun j => entry m c ⟨(j 0).val, (j 0).isLt⟩ ⟨(j 1).val, (j 1).isLt⟩

theorem outArr_apply (c : Dev nD) (r : Fin 8192) (s : Fin 4096) : outArr m c (ix2 r s) = entry m c r s := rfl

/-- A last step's staging contents at entry (p, q) of the block. -/
theorem outEntry (c : Dev nD) (t : Fin cfg0.N) (h3 : t.val % 4 = 3) (p q : Fin 1024) :
    (outsAt0 m c t.val t.isLt).1 (ix2 p q) = entry m c (rowAt t p) (colAt t q) :=
  out_eq m c t h3 p q

/-- Reading the written-back part of a block X at y is reading X at y's two coordinates (the blocks tile the array, so
    the whole block is written back). Stated for any X. -/
theorem cut_apply (t : Fin cfg0.N) (X : Vec Ideal S1024x1024 .f32) (y : ((cfg0.win 5).xblock (cfg0.grid.coords t)).Idx) :
    (cfg0.win 5).cut (grid0.coords t) X y
      = X (ix2 (⟨(y 0).val, (y 0).isLt⟩ : Fin 1024) (⟨(y 1).val, (y 1).isLt⟩ : Fin 1024)) := by
  show X ((cfg0.win 5).xinj (grid0.coords t) y) = _
  exact congrArg X (funext fun a => Fin.ext (by match a with | ⟨0, _⟩ => rfl | ⟨1, _⟩ => rfl))

/-- Entry y of point t's output block sits in the array at row 1024 (t / 16) + y0 and column 1024 (t / 4 % 4) + y1. -/
theorem emb_eq (t : Fin cfg0.N) (y : ((cfg0.win 5).xblock (cfg0.grid.coords t)).Idx) :
    ((cfg0.win 5).blk t).view.emb y
      = ix2 (rowAt t (⟨(y 0).val, (y 0).isLt⟩ : Fin 1024)) (colAt t (⟨(y 1).val, (y 1).isLt⟩ : Fin 1024)) := by
  obtain ⟨-, -, -, -, -, -, -, -, -, -, e0, e1⟩ := idx_facts t
  funext a
  apply Fin.ext
  match a with
  | ⟨0, _⟩ => show win0_5.index t (0 : Fin 2) * 1024 + 1 * (y 0).val = 1024 * (t.val / 16) + (y 0).val; omega
  | ⟨1, _⟩ => show win0_5.index t (1 : Fin 2) * 1024 + 1 * (y 1).val = 1024 * (t.val / 4 % 4) + (y 1).val; omega

/-- WHAT A LAST STEP WRITES BACK, for ANY proof data: if the body leaves the block X in the output's staging buffer at
    point t, and X's entry (p, q) is E at row 1024 (t / 16) + p and column 1024 (t / 4 % 4) + q, then what is written back
    is point t's block of any array G whose entries are E. -/
theorem flushed_of {c : Dev nD} (dat : Dat τ (Elt Ideal) Unit ℕ (UR sig nD τ) ℕ cfg0 c) (t : Fin cfg0.N)
    (X : Vec Ideal S1024x1024 .f32) (G : Vec Ideal S8192x4096 .f32) (E : Fin 8192 → Fin 4096 → EReal)
    (hafter : dat.after 5 t = X) (hG : ∀ (r : Fin 8192) (s : Fin 4096), G (ix2 r s) = E r s)
    (hE : ∀ p q : Fin 1024, X (ix2 p q) = E (rowAt t p) (colAt t q)) :
    dat.flushed 5 t = ((cfg0.win 5).blk t).view.read (Elt Ideal) G := by
  funext y
  rw [View.read_apply, emb_eq t y, hG]
  refine (cut_apply t (dat.after 5 t) y).trans ?_
  rw [hafter]
  exact hE _ _

/-- WHAT A LAST STEP WRITES BACK is its block of the output function. -/
theorem flushed_eq (c : Dev nD) (t : Fin cfg0.N) (hf : (cfg0.win 5).flush t = true) :
    (dats m 0 c).flushed 5 t = ((cfg0.win 5).blk t).view.read (Elt Ideal) (outArr m c) :=
  flushed_of (dats m 0 c) t _ (outArr m c) (entry m c) (after0_5 m c t) (outArr_apply m c)
    (outEntry m c t ((flush0_5 t).mp hf))

/-- An index of the array is in point t's block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v40).slice (win0_5.rect t)).set ↔ _
  rw [View.set_slice_whole, Rect.mem_set_unit]
  exact Iff.rfl

/-- THE BLOCKS TILE THE ARRAY: every entry is in the block some last step writes back. -/
theorem cover (i : S8192x4096.Idx) :
    ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 128 := N_0
  let t : Fin cfg0.N := ⟨((i 0).val / 1024 * 4 + (i 1).val / 1024) * 4 + 3, by rw [hN]; omega⟩
  have htv : t.val = ((i 0).val / 1024 * 4 + (i 1).val / 1024) * 4 + 3 := rfl
  obtain ⟨-, -, -, -, -, -, -, -, -, -, e0, e1⟩ := idx_facts t
  refine ⟨t, (flush0_5 t).mpr (by rw [htv]; omega), ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE ARRAY after the run. -/
theorem final (c : Dev nD) : (dats m 0 c).arrAt 5 cfg0.N = outArr m c :=
  (dats m 0 c).arrAt_eq_of_cover 5 (outArr m c) (flushed_eq m c) cover

/-- The program's result: the reshape after the region, of that array. -/
theorem result_eq (c : Dev nD) :
    Pipeline.afterTail₀ cfgs (dats m) 0 (V0 m) [hostOps1] c main_v41
      = shapeCast S4x2048x4096 (outArr m c) shapeCasts_S8192x4096_S4x2048x4096 := by
  unfold Pipeline.afterTail₀
  show StableHlo.after hostOps1 _ (Proc.devRef .tc main_v41) = _
  after_results
  have hw : Pipeline.withArrays (cfgs 0).spec c (V0 m c) (fun w => (dats m 0 c).arrAt w (cfgs 0).N) (Proc.devRef .tc main_v40)
      = outArr m c :=
    (Pipeline.withArrays_arr spec0 launch0.win.arr_inj c _ _ 5).trans (final m c)
  rw [hw]
  rfl

/-- THE RUN, READ: every weakly fair execution ends with the result at the reshape of the output function and the
    arguments unchanged. -/
theorem run : θ_run defs (onTc (τ := τ) (main (F := Ideal))) ⟨m, fun _ => 0, ρ⟩ fun r => ∀ c : Dev nD,
      r.2.mem ((c.tc : Thread nD τ).loc main_v41) = shapeCast S4x2048x4096 (outArr m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v41 (Pipeline.mem_restRefs_of main_v41 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.OutArray

end
-- ==== Proof.Bridge.lean ====
/-
  The kernel's output array is the reference's product stage, entry by entry. Both programs compute the same four
  quantities from the arguments by the same host operations: the shifted quantized activations X (one row per token),
  the quantized weights W (one row per output feature), the per-token scale s and the per-feature scale w. The kernel
  is handed X and W (through a change of float format, the identity on the extended reals), s as a column, w and the
  bias b as rows, and leaves at (r, c):  (sum_k X(r,k) W(c,k)) * s(r) * w(c) + b(c).  The reference multiplies the
  same contraction by the product s(r) * w(c) and adds b(c). Multiplication on the extended reals is associative, so
  the two agree at every entry, finite or not.
-/
import proofs.«151902_j56530359550878_1_alg».proof.Proof.OutArray
import proofs.«151902_j56530359550878_1_alg».proof.Proof.Gen.ReferenceIdeal.Read
import proofs.«151902_j56530359550878_1_alg».proof.Proof.LibColumnLayout
import Idealize.ShloMosaic.Lib.ValueLayout

noncomputable section

open Idealize.ShloMosaic Idealize.ShloMosaic.TcCoe Idealize.SL.Sem

namespace Cert.Bridge

open Cert.KernelIdeal Cert.KernelIdeal.Gen Idealize.ShloMosaic.ValueIdx
open Cert.KernelIdeal.Blocks Cert.KernelIdeal.OutArray

variable (m : (ℓ : Loc nD τ sig) → Buf (Elt Ideal) ℓ)

/-! ## The reference's index functions at coordinates -/

theorem lidx_eq (r : Fin 8192) (s : Fin 4096) (k : Fin 4096) : Cert.ReferenceIdeal.Read.lidx_main_v35 (ix2 r s) k = ix2 r k :=
  funext fun a => Fin.ext (by match a with | ⟨0, _⟩ => rfl | ⟨1, _⟩ => rfl)

theorem ridx_eq (r : Fin 8192) (s : Fin 4096) (k : Fin 4096) : Cert.ReferenceIdeal.Read.ridx_main_v35 (ix2 r s) k = ix2 s k :=
  funext fun a => Fin.ext (by match a with | ⟨0, _⟩ => rfl | ⟨1, _⟩ => rfl)

theorem rowIdx_eq (r : Fin 8192) (s : Fin 4096) : Cert.ReferenceIdeal.Read.idx_main_v36 (Cert.ReferenceIdeal.Read.idx_main_v38 (ix2 r s)) = ix1 r :=
  funext fun a => Fin.ext (by match a with | ⟨0, _⟩ => rfl)

theorem colIdx_eq (r : Fin 8192) (s : Fin 4096) : Cert.ReferenceIdeal.Read.idx_main_v37 (Cert.ReferenceIdeal.Read.idx_main_v39 (ix2 r s)) = ix1 s :=
  funext fun a => Fin.ext (by match a with | ⟨0, _⟩ => rfl)

theorem biasIdx_eq (r : Fin 8192) (s : Fin 4096) : Cert.ReferenceIdeal.Read.idx_main_v42 (Cert.ReferenceIdeal.Read.idx_main_v43 (ix2 r s)) = ix1 s :=
  funext fun a => Fin.ext (by match a with | ⟨0, _⟩ => rfl)

/-- The reference's product stage at entry (r, s). -/
theorem ref_apply (x0 : Vec Ideal S4x2048x4096 .f32) (x1 : Vec Ideal S4096x4096 .f32) (x2 : Vec Ideal S4096 .f32)
    (r : Fin 8192) (s : Fin 4096) :
    Cert.ReferenceIdeal.Read.val_main_v44 (F := Ideal) x0 x1 x2 (ix2 r s)
      = (∑ k : Fin 4096, Cert.ReferenceIdeal.Read.val_main_v34 (F := Ideal) x0 (ix2 r k) * Cert.ReferenceIdeal.Read.val_main_v11 (F := Ideal) x1 (ix2 s k))
          * (Cert.ReferenceIdeal.Read.val_main_v20 (F := Ideal) x0 (ix1 r) * Cert.ReferenceIdeal.Read.val_main_v6 (F := Ideal) x1 (ix1 s))
        + x2 (ix1 s) := by
  rw [Cert.ReferenceIdeal.Read.val_main_v44_apply, Cert.ReferenceIdeal.Read.val_main_v41_apply, Cert.ReferenceIdeal.Read.val_main_v35_apply, Cert.ReferenceIdeal.Read.val_main_v40_apply,
    Cert.ReferenceIdeal.Read.val_main_v38_apply, Cert.ReferenceIdeal.Read.val_main_v36_apply, Cert.ReferenceIdeal.Read.val_main_v39_apply, Cert.ReferenceIdeal.Read.val_main_v37_apply,
    Cert.ReferenceIdeal.Read.val_main_v43_apply, Cert.ReferenceIdeal.Read.val_main_v42_apply, rowIdx_eq, colIdx_eq, biasIdx_eq]
  simp only [lidx_eq, ridx_eq]
  rfl

/-- THE BRIDGE, given what the region finds in its five arrays. -/
theorem outArr_eq_ref (c : Dev nD) (x0 : Vec Ideal S4x2048x4096 .f32) (x1 : Vec Ideal S4096x4096 .f32) (x2 : Vec Ideal S4096 .f32)
    (hl : lhsArr m c = truncf (F := Ideal) (s := S8192x4096) (φ := .f32) .bf16 (Cert.ReferenceIdeal.Read.val_main_v34 (F := Ideal) x0) (by decide))
    (hr : rhsArr m c = truncf (F := Ideal) (s := S4096x4096) (φ := .f32) .bf16 (Cert.ReferenceIdeal.Read.val_main_v11 (F := Ideal) x1) (by decide))
    (hrow : rowFac m c = shapeCast S8192x1 (Cert.ReferenceIdeal.Read.val_main_v20 (F := Ideal) x0) shapeCasts_S8192_S8192x1)
    (hcol : colFac m c = shapeCast S1x4096 (Cert.ReferenceIdeal.Read.val_main_v6 (F := Ideal) x1) shapeCasts_S4096_S1x4096)
    (hb : biasArr m c = shapeCast S1x4096 x2 shapeCasts_S4096_S1x4096) :
    outArr m c = Cert.ReferenceIdeal.Read.val_main_v44 (F := Ideal) x0 x1 x2 := by
  funext j
  obtain ⟨r, s, rfl⟩ : ∃ (r : Fin 8192) (s : Fin 4096), j = ix2 r s := ⟨j 0, j 1, eq_ix2 j⟩
  rw [outArr_apply, ref_apply]
  unfold entry
  rw [hl, hr, hrow, hcol, hb, shapeCast_a_a1_apply, shapeCast_a_1a_apply, shapeCast_a_1a_apply]
  exact Cert.RunSum.scale_scale _ _ _ _

end Cert.Bridge

end
-- ==== Proof.lean ====
/-
  A linear layer over quantized operands against its plain reference. Both programs quantize the weights per output
  feature (symmetric, by the row's largest magnitude over 127) and the activations per token (asymmetric, by the row's
  range over 255, with a rounded zero point), by the same host operations on the same constants. The kernel then
  contracts the shifted quantized activations X with the quantized weights W block by block: for each of the 8 x 4
  blocks of the output it adds the four partial products over runs of 1024 contracted columns onto a zero accumulator,
  and on the last run multiplies the accumulator by the token's scale s(r), then by the feature's scale w(c), and adds
  the bias b(c). The reference contracts all 4096 columns at once, multiplies by the product s(r) w(c), and adds b(c).

  Read over the extended reals a change of float format is the identity, and the two results agree entry by entry:
  addition is commutative and associative with zero neutral, so the four ordered partial sums are the one sum over the
  contracted axis; multiplication is associative, so scaling twice is scaling by the product. Neither law asks for
  finite values, so the precondition is not used. The ideal pass rewrote nothing, so there is nothing to preserve.

  The three frames: the two kernel programs' are the generated frames; the reference has no kernel, and its frame is its
  run with the result dropped.
-/
import proofs.«151902_j56530359550878_1_alg».proof.Defs
import proofs.«151902_j56530359550878_1_alg».proof.Proof.Gen.Kernel
import proofs.«151902_j56530359550878_1_alg».proof.Proof.Gen.Kernel.Skeleton
import proofs.«151902_j56530359550878_1_alg».proof.Proof.Gen.Kernel.Launch
import proofs.«151902_j56530359550878_1_alg».proof.Proof.Gen.Kernel.Points
import proofs.«151902_j56530359550878_1_alg».proof.Proof.Gen.Kernel.Frame
import proofs.«151902_j56530359550878_1_alg».proof.Proof.Gen.KernelIdeal
import proofs.«151902_j56530359550878_1_alg».proof.Proof.Gen.KernelIdeal.Skeleton
import proofs.«151902_j56530359550878_1_alg».proof.Proof.Gen.KernelIdeal.Launch
import proofs.«151902_j56530359550878_1_alg».proof.Proof.Gen.KernelIdeal.Points
import proofs.«151902_j56530359550878_1_alg».proof.Proof.Gen.KernelIdeal.Frame
import proofs.«151902_j56530359550878_1_alg».proof.Proof.Gen.ReferenceIdeal
import proofs.«151902_j56530359550878_1_alg».proof.Proof.Gen.ReferenceIdeal.Run
import proofs.«151902_j56530359550878_1_alg».proof.Proof.Gen.ReferenceIdeal.Read
import proofs.«151902_j56530359550878_1_alg».proof.Proof.Gen.Pre_finite_inputs
import proofs.«151902_j56530359550878_1_alg».proof.Proof.HostPrefix
import proofs.«151902_j56530359550878_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result is the reshape of its output array, which is the reference's product
    stage of the same arguments; the reference's result is the reshape of that stage. -/
theorem algebraic : Cert.algebraic_KernelIdeal_ReferenceIdeal := by
  intro m ρ m' ρ' _ hagree
  refine ⟨fun c => shapeCast Cert.KernelIdeal.S4x2048x4096 (Cert.KernelIdeal.OutArray.outArr m c)
      Cert.KernelIdeal.Gen.shapeCasts_S8192x4096_S4x2048x4096, Cert.KernelIdeal.OutArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2]
  show _ = shapeCast Cert.KernelIdeal.S4x2048x4096 (Cert.KernelIdeal.OutArray.outArr m c)
    Cert.KernelIdeal.Gen.shapeCasts_S8192x4096_S4x2048x4096
  rw [Cert.Bridge.outArr_eq_ref m c _ _ _ (Cert.KernelIdeal.HostPrefix.lhsArr_eq m c)
    (Cert.KernelIdeal.HostPrefix.rhsArr_eq m c) (Cert.KernelIdeal.HostPrefix.rowFac_eq m c)
    (Cert.KernelIdeal.HostPrefix.colFac_eq m c) (Cert.KernelIdeal.HostPrefix.biasArr_eq m c)]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
